-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) (main_arg2 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S8192x256 : Shape := ⟨2, ![8192, 256]⟩
abbrev S8192x1 : Shape := ⟨2, ![8192, 1]⟩
abbrev S2048x256 : Shape := ⟨2, ![2048, 256]⟩
abbrev S1024x256 : Shape := ⟨2, ![1024, 256]⟩
abbrev S2048x1 : Shape := ⟨2, ![2048, 1]⟩
abbrev S2048 : Shape := ⟨1, ![2048]⟩
abbrev S2048x1024 : Shape := ⟨2, ![2048, 1024]⟩
abbrev S1024 : Shape := ⟨1, ![1024]⟩
abbrev S1024x1 : Shape := ⟨2, ![1024, 1]⟩
abbrev S1x1024 : Shape := ⟨2, ![1, 1024]⟩
abbrev S8192 : Shape := ⟨1, ![8192]⟩
abbrev S_ : Shape := ⟨0, ![]⟩

abbrev nBuf : Space → Nat
  | .hbm => 24
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x1, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .i1⟩
  | .hbm, ⟨8, _⟩ => ⟨S8192, .i32⟩
  | .hbm, ⟨9, _⟩ => ⟨S_, .i32⟩
  | .hbm, ⟨10, _⟩ => ⟨S_, .i32⟩
  | .hbm, ⟨11, _⟩ => ⟨S_, .f32⟩
  | .hbm, ⟨12, _⟩ => ⟨S_, .f32⟩
  | .hbm, ⟨13, _⟩ => ⟨S_, .i32⟩
  | .hbm, ⟨14, _⟩ => ⟨S_, .i32⟩
  | .hbm, ⟨15, _⟩ => ⟨S_, .f32⟩
  | .hbm, ⟨16, _⟩ => ⟨S_, .f32⟩
  | .hbm, ⟨17, _⟩ => ⟨S_, .i32⟩
  | .hbm, ⟨18, _⟩ => ⟨S_, .i1⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1024x256, .f32⟩
  | .local _ .vmem, ⟨5, _⟩ => ⟨S1024x256, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_13 : BitVec 32 := 0#32
  let v33 : BitVec 1 := Scalar.cmpi .ne v32 c0_i32_13
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  reduces_S1024x256_S1024 : S1024x256.Reduces [1] S1024
  shapeCasts_S1024_S1024x1 : S1024.ShapeCasts S1024x1
  shapeCasts_S1024x1_S1x1024 : S1024x1.ShapeCasts S1x1024
  broadcasts_S2048x1_S2048x1024 : S2048x1.Broadcasts S2048x1024
  broadcasts_S1x1024_S2048x1024 : S1x1024.Broadcasts S2048x1024
  reduces_S2048x1024_S2048 : S2048x1024.Reduces [1] S2048
  shapeCasts_S8192x1_S8192 : S8192x1.ShapeCasts S8192
  bcast_S_S8192 : S_.BroadcastsInDim S8192 (![] : Fin 0 → Fin S8192.rank)
  natLt_1_32 : 1 < 32
  reducesTo_S8192_S_d0 : S8192.ReducesTo [0] S_
  h_S_ : 0 < S_.numel
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .f32 = 32 ∨ (Rect.block (s := S8192x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S8192x1.size a
  hwx0_3 : ∀ i : grid0.Coords, EltTy.bits .f32 = 32 ∨ (Rect.block (s := S8192x1) S2048x1.size (cc0_transform_3 i) (hinb0_3 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 61
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192x8192, .f32⟩
  | .hbm, ⟨13, _⟩ => ⟨S8192x256, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x256, .f32⟩
  | .hbm, ⟨18, _⟩ => ⟨S_, .f32⟩
  | .hbm, ⟨19, _⟩ => ⟨S8192, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .i1⟩
  | .hbm, ⟨45, _⟩ => ⟨S8192, .i32⟩
  | .hbm, ⟨46, _⟩ => ⟨S_, .i32⟩
  | .hbm, ⟨47, _⟩ => ⟨S_, .i32⟩
  | .hbm, ⟨48, _⟩ => ⟨S_, .f32⟩
  | .hbm, ⟨49, _⟩ => ⟨S_, .f32⟩
  | .hbm, ⟨50, _⟩ => ⟨S_, .i32⟩
  | .hbm, ⟨51, _⟩ => ⟨S_, .i32⟩
  | .hbm, ⟨52, _⟩ => ⟨S_, .f32⟩
  | .hbm, ⟨53, _⟩ => ⟨S_, .f32⟩
  | .hbm, ⟨54, _⟩ => ⟨S_, .i32⟩
  | .hbm, ⟨55, _⟩ => ⟨S_, .i1⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_call2_cst : Ref sig .tc := ⟨.hbm, 39, rfl⟩
abbrev main_call2_v0 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_c_9 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_10 : Ref sig .tc := ⟨.hbm, 54, rfl⟩
abbrev main_v33 : Ref sig .tc := ⟨.hbm, 55, rfl⟩
abbrev main_cst_11 : Ref sig .tc := ⟨.hbm, 56, rfl⟩
abbrev main_v34 : Ref sig .tc := ⟨.hbm, 57, rfl⟩
abbrev main_cst_12 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  natLt_1_32 : 1 < 32
  reducesTo_S8192_S_d0 : S8192.ReducesTo [0] S_
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.KernelPieces.lean ====
/-
  What each control case of the body leaves in the two carried scratch columns and in the output block, as the body's
  own arithmetic of what it loaded. The body keeps, per anchor row of the row tile, the running minimum of the distances
  to the negatives seen so far (first scratch column) and the anchor-positive distance (second scratch column).
    first column tile (case A): the positive distances are computed and stored; the running minimum is reset to +∞, read
      back, and updated with this tile's minimum;
    middle column tiles (case B): the running minimum is updated; the positive distances stay;
    last column tile (case C): the running minimum is updated, read back, and the loss of each row is stored to the
      output block.
  Each store covers its whole buffer through the zero-offset rectangle, so what a buffer ends holding is its last store's
  value, and a load after a covering store reads that store's value.
-/
import proofs.«122117_j63728724738653_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets, as a constant function. -/
theorem hz : (![0, 0] : Fin 2 → Nat) = fun _ => 0 := funext fun a => by fin_cases a <;> rfl

/-- Case A, the running minimum: +∞ stored, read back, and updated with the first tile's minimum. -/
theorem scratchMin_A (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x256 .f32) (x1 : Vec F S2048x256 .f32) (x2 : Vec F S1024x256 .f32) :
    sout0_A_0 c i arg2 harg2 arg3 harg3 arg4 harg4 arg5 harg5 arg6 harg6 arg7 harg7 hc0 hc1 x0 x1 x2 = k0_pay3 x0 x2 (k0_pay2 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S2048x1) hz]
  simp only [View.readAt_eq_ld, harg2.read_unread, harg3.read_unread, harg4.read_unread, harg5.read_unread, harg6.read_unread, harg7.read_unread, View.ld_unit_zero (S := S2048x256) hz, View.ld_unit_zero (S := S1024x256) hz, View.ld_unit_zero (S := S2048x1) hz, View.readCov_unit_zero (S := S2048x1) _ hz]

/-- Case A, the positive distances: computed from the anchor and positive blocks. -/
theorem scratchPos_A (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x256 .f32) (x1 : Vec F S2048x256 .f32) (x2 : Vec F S1024x256 .f32) :
    sout0_A_1 c i arg2 harg2 arg3 harg3 arg4 harg4 arg5 harg5 arg6 harg6 arg7 harg7 hc0 hc1 x0 x1 x2 = k0_pay1 x0 x1 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_unit_zero (S := S2048x1) hz]
  simp only [View.readAt_eq_ld, harg2.read_unread, harg3.read_unread, harg4.read_unread, harg5.read_unread, harg6.read_unread, harg7.read_unread, View.ld_unit_zero (S := S2048x256) hz, View.ld_unit_zero (S := S1024x256) hz, View.ld_unit_zero (S := S2048x1) hz, View.readCov_unit_zero (S := S2048x1) _ hz]

/-- Case B, the running minimum: what the point before left, updated with this tile's minimum. -/
theorem scratchMin_B (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x256 .f32) (x1 : Vec F S2048x256 .f32) (x2 : Vec F S1024x256 .f32) (xs0 : Vec F S2048x1 .f32) (xs1 : Vec F S2048x1 .f32) :
    sout0_B_0 c i arg2 harg2 arg3 harg3 arg4 harg4 arg5 harg5 arg6 harg6 arg7 harg7 hc0 hc1 x0 x1 x2 xs0 xs1 = k0_pay3 x0 x2 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S2048x1) hz]
  simp only [View.readAt_eq_ld, harg2.read_unread, harg3.read_unread, harg4.read_unread, harg5.read_unread, harg6.read_unread, harg7.read_unread, View.ld_unit_zero (S := S2048x256) hz, View.ld_unit_zero (S := S1024x256) hz, View.ld_unit_zero (S := S2048x1) hz, View.readCov_unit_zero (S := S2048x1) _ hz]

/-- Case C, the running minimum: as in case B. -/
theorem scratchMin_C (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x256 .f32) (x1 : Vec F S2048x256 .f32) (x2 : Vec F S1024x256 .f32) (xs0 : Vec F S2048x1 .f32) (xs1 : Vec F S2048x1 .f32) :
    sout0_C_0 c i arg2 harg2 arg3 harg3 arg4 harg4 arg5 harg5 arg6 harg6 arg7 harg7 hc0 hc1 x0 x1 x2 xs0 xs1 = k0_pay3 x0 x2 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S2048x1) hz]
  simp only [View.readAt_eq_ld, harg2.read_unread, harg3.read_unread, harg4.read_unread, harg5.read_unread, harg6.read_unread, harg7.read_unread, View.ld_unit_zero (S := S2048x256) hz, View.ld_unit_zero (S := S1024x256) hz, View.ld_unit_zero (S := S2048x1) hz, View.readCov_unit_zero (S := S2048x1) _ hz]

/-- Case C, the output block: the loss of the positive distances and the updated running minimum. -/
theorem outLoss_C (c : Dev nD) (i : grid0.Coords) (arg2 : Memref sig .tc .vmem S2048x256 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x256 .f32) (x1 : Vec F S2048x256 .f32) (x2 : Vec F S1024x256 .f32) (xs0 : Vec F S2048x1 .f32) (xs1 : Vec F S2048x1 .f32) :
    out0_C_3 c i arg2 harg2 arg3 harg3 arg4 harg4 arg5 harg5 arg6 harg6 arg7 harg7 hc0 hc1 x0 x1 x2 xs0 xs1 = k0_pay4 xs1 (k0_pay3 x0 x2 xs0) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S2048x1) hz]
  simp only [View.readAt_eq_ld, harg2.read_unread, harg3.read_unread, harg4.read_unread, harg5.read_unread, harg6.read_unread, harg7.read_unread, View.ld_unit_zero (S := S2048x256) hz, View.ld_unit_zero (S := S1024x256) hz, View.ld_unit_zero (S := S2048x1) hz, View.readCov_unit_zero (S := S2048x1) _ hz]

end Cert.KernelIdeal.Pieces

end
-- ==== Proof.KernelBlocks.lean ====
/-
  The windows' blocks as runs of rows of the argument arrays. The grid has 4 row tiles by 8 column tiles, walked row tile
  first: point t is row tile t / 8 and column tile t % 8. The anchors' and positives' windows follow the row tile (rows
  2048·(t / 8) + p), the negatives' window follows the column tile (rows 1024·(t % 8) + q); the output window follows the
  row tile. A block's coordinate is always block index × block extent + the coordinate inside the block.
-/
import proofs.«122117_j63728724738653_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The three input blocks at a point, and the three argument arrays as the region finds them, at their literal types. -/
abbrev aBlock (c : Dev nD) (t : Fin cfg0.N) : Vec F S2048x256 .f32 := iblk m c 0 t
abbrev pBlock (c : Dev nD) (t : Fin cfg0.N) : Vec F S2048x256 .f32 := iblk m c 1 t
abbrev nBlock (c : Dev nD) (t : Fin cfg0.N) : Vec F S1024x256 .f32 := iblk m c 2 t
abbrev anchors (c : Dev nD) : Vec F S8192x256 .f32 := V m c main_arg0
abbrev positives (c : Dev nD) : Vec F S8192x256 .f32 := V m c main_arg1
abbrev negatives (c : Dev nD) : Vec F S8192x256 .f32 := V m c main_arg2

/-- The four windows' block indices at every point of the grid. -/
theorem index_facts : ∀ t : Fin cfg0.N,
    win0_0.index t 0 = t.val / 8 ∧ win0_0.index t 1 = 0 ∧ win0_1.index t 0 = t.val / 8 ∧ win0_1.index t 1 = 0
    ∧ win0_2.index t 0 = t.val % 8 ∧ win0_2.index t 1 = 0 ∧ win0_3.index t 0 = t.val / 8 ∧ win0_3.index t 1 = 0 :=
  (by decide +kernel : ∀ t : Fin grid0.N,
    win0_0.index t 0 = t.val / 8 ∧ win0_0.index t 1 = 0 ∧ win0_1.index t 0 = t.val / 8 ∧ win0_1.index t 1 = 0
    ∧ win0_2.index t 0 = t.val % 8 ∧ win0_2.index t 1 = 0 ∧ win0_3.index t 0 = t.val / 8 ∧ win0_3.index t 1 = 0)

/-- Row p of the anchors' block at point t is row 2048·(t / 8) + p of the anchors. -/
theorem aBlock_at (c : Dev nD) (t : Fin cfg0.N) (p : Fin 2048) (k : Fin 256) (r : Fin 8192)
    (hr : r.val = 2048 * (t.val / 8) + p.val) : aBlock m c t (ix2 p k) = anchors m c (ix2 r k) := by
  show iblk m c 0 t (ix2 p k) = V m c main_arg0 (ix2 r k)
  unfold iblk
  rw [View.read_apply]
  show V m c main_arg0 _ = V m c main_arg0 _
  congr 1
  funext a
  apply Fin.ext
  match a with
  | ⟨0, _⟩ => show win0_0.index t 0 * 2048 + 1 * p.val = r.val; rw [(index_facts t).1]; omega
  | ⟨1, _⟩ => show win0_0.index t 1 * 256 + 1 * k.val = k.val; rw [(index_facts t).2.1]; omega

/-- Row p of the positives' block at point t is row 2048·(t / 8) + p of the positives. -/
theorem pBlock_at (c : Dev nD) (t : Fin cfg0.N) (p : Fin 2048) (k : Fin 256) (r : Fin 8192)
    (hr : r.val = 2048 * (t.val / 8) + p.val) : pBlock m c t (ix2 p k) = positives m c (ix2 r k) := by
  show iblk m c 1 t (ix2 p k) = V m c main_arg1 (ix2 r k)
  unfold iblk
  rw [View.read_apply]
  show V m c main_arg1 _ = V m c main_arg1 _
  congr 1
  funext a
  apply Fin.ext
  match a with
  | ⟨0, _⟩ => show win0_1.index t 0 * 2048 + 1 * p.val = r.val; rw [(index_facts t).2.2.1]; omega
  | ⟨1, _⟩ => show win0_1.index t 1 * 256 + 1 * k.val = k.val; rw [(index_facts t).2.2.2.1]; omega

/-- Row q of the negatives' block at point t is row 1024·(t % 8) + q of the negatives. -/
theorem nBlock_at (c : Dev nD) (t : Fin cfg0.N) (q : Fin 1024) (k : Fin 256) (s : Fin 8192)
    (hs : s.val = 1024 * (t.val % 8) + q.val) : nBlock m c t (ix2 q k) = negatives m c (ix2 s k) := by
  show iblk m c 2 t (ix2 q k) = V m c main_arg2 (ix2 s k)
  unfold iblk
  rw [View.read_apply]
  show V m c main_arg2 _ = V m c main_arg2 _
  congr 1
  funext a
  apply Fin.ext
  match a with
  | ⟨0, _⟩ => show win0_2.index t 0 * 1024 + 1 * q.val = s.val; rw [(index_facts t).2.2.2.2.1]; omega
  | ⟨1, _⟩ => show win0_2.index t 1 * 256 + 1 * k.val = k.val; rw [(index_facts t).2.2.2.2.2.1]; omega

end Cert.KernelIdeal.Blocks

end
-- ==== Proof.TripletSpec.lean ====
/-
  The batch-hard triplet loss, row by row, over the extended reals.

  For matrices of rows of 256 entries — anchors a, positives p, negatives n — and a row r:
    posDist a p r   = sqrt (max ε (Σ_k (a r k − p r k)²))
    negDist a n r c = sqrt (max ε ((Σ_k a r k² + Σ_k n c k²) − 2 · Σ_k a r k · n c k))
    hardest a n r   = the least of +∞ and negDist a n r c over every column c
    loss a p n r    = max (posDist a p r − hardest a n r + 1/4) 0
  with ε, 2, 1/4, 0 and +∞ the values of the f32 words the two programs share.

  A minimum over all columns is the same taken tile by tile: minBelow g k is the least of +∞ and g c over the columns
  c < k; it is +∞ at k = 0, it is the whole minimum once k passes the last column, and extending it by a tile of T
  columns is min (minBelow g k) (the tile's own minimum). All three are the universal property of a fold of min:
  y ≤ fold min b g over s exactly when y ≤ b and y ≤ g c for every c in s.
-/
import Idealize.ShloMosaic.PureOps.Ideal
import Idealize.ShloMosaic.Lib.ValueIdx
import Mathlib.Data.Finset.Fold

noncomputable section

namespace Cert.Triplet

open Idealize.ShloMosaic Idealize.ShloMosaic.ValueIdx

/-- R rows of 256 extended reals. -/
abbrev Rows (R : ℕ) : Type := (⟨2, ![R, 256]⟩ : Shape).Idx → EReal

/-- The shared f32 words, as extended reals: the clamp ε (1e-16 rounded to f32), 2, the margin 1/4, 0 and +∞. -/
abbrev eps : EReal := Ideal.ofBits .f32 0x24E69595#32
abbrev two : EReal := Ideal.ofBits .f32 0x40000000#32
abbrev margin : EReal := Ideal.ofBits .f32 0x3E800000#32
abbrev zero : EReal := Ideal.ofBits .f32 0x00000000#32
abbrev top : EReal := Ideal.ofBits .f32 0x7F800000#32

/-- The squared norm of row r. -/
def sqNorm {R : ℕ} (x : Rows R) (r : Fin R) : EReal := ∑ k : Fin 256, x (ix2 r k) * x (ix2 r k)

/-- The inner product of row r of x with row c of y. -/
def inner {R C : ℕ} (x : Rows R) (y : Rows C) (r : Fin R) (c : Fin C) : EReal :=
  ∑ k : Fin 256, x (ix2 r k) * y (ix2 c k)

/-- The clamped distance between row r of the anchors and row r of the positives. -/
def posDist {R : ℕ} (a p : Rows R) (r : Fin R) : EReal :=
  Ideal.sqrt (max eps (∑ k : Fin 256, (a (ix2 r k) - p (ix2 r k)) * (a (ix2 r k) - p (ix2 r k))))

/-- The clamped distance between anchor row r and negative row c, through the norms and the inner product. -/
def negDist {R C : ℕ} (a : Rows R) (n : Rows C) (r : Fin R) (c : Fin C) : EReal :=
  Ideal.sqrt (max eps (sqNorm a r + sqNorm n c - two * inner a n r c))

/-- The least of +∞ and g c over every column. -/
def minAll {C : ℕ} (g : Fin C → EReal) : EReal := (Finset.univ : Finset (Fin C)).fold min top g

/-- The least of +∞ and g c over the columns c < k. -/
def minBelow {C : ℕ} (g : Fin C → EReal) (k : ℕ) : EReal :=
  (Finset.univ.filter fun c : Fin C => c.val < k).fold min top g

/-- The distance to the closest negative. -/
def hardest {R C : ℕ} (a : Rows R) (n : Rows C) (r : Fin R) : EReal := minAll (negDist a n r)

/-- The loss of row r. -/
def loss {R C : ℕ} (a p : Rows R) (n : Rows C) (r : Fin R) : EReal :=
  max (posDist a p r - hardest a n r + margin) zero

theorem minBelow_zero {C : ℕ} (g : Fin C → EReal) : minBelow g 0 = top := by
  unfold minBelow
  rw [Finset.filter_false_of_mem (fun c _ => Nat.not_lt_zero _), Finset.fold_empty]

theorem minBelow_all {C : ℕ} (g : Fin C → EReal) (k : ℕ) (h : C ≤ k) : minBelow g k = minAll g := by
  unfold minBelow minAll
  rw [Finset.filter_true_of_mem (fun c _ => lt_of_lt_of_le c.isLt h)]

/-- Extending the columns below k by the tile k, …, k + T − 1. -/
theorem minBelow_add_tile {C : ℕ} (g : Fin C → EReal) (k T : ℕ) (h : k + T ≤ C) :
    minBelow g (k + T)
      = min (minBelow g k) (minAll fun q : Fin T => g ⟨k + q.val, lt_of_lt_of_le (Nat.add_lt_add_left q.isLt k) h⟩) := by
  refine eq_of_forall_le_iff fun y => ?_
  unfold minBelow minAll
  simp only [Finset.le_fold_min, le_min_iff, Finset.mem_filter, Finset.mem_univ, true_and, forall_true_left]
  constructor
  · intro hy
    exact ⟨⟨hy.1, fun c hc => hy.2 c (by omega)⟩, hy.1, fun q => hy.2 _ (Nat.add_lt_add_left q.isLt k)⟩
  · intro hy
    refine ⟨hy.1.1, fun c hc => ?_⟩
    by_cases hck : c.val < k
    · exact hy.1.2 c hck
    · have hq : c.val - k < T := by omega
      have e : (⟨k + (⟨c.val - k, hq⟩ : Fin T).val, lt_of_lt_of_le (Nat.add_lt_add_left hq k) h⟩ : Fin C) = c :=
        Fin.ext (by show k + (c.val - k) = c.val; omega)
      exact e ▸ hy.2.2 ⟨c.val - k, hq⟩

/-- A tile of the negatives is a run of their rows: if block row q of nb is row k + q of n, and the anchor block's row
    p is row r of a, the block's distances are the whole matrices'. -/
theorem negDist_block {R C Rb Cb : ℕ} (a : Rows R) (n : Rows C) (ab : Rows Rb) (nb : Rows Cb) (r : Fin R) (p : Fin Rb)
    (c : Fin C) (q : Fin Cb) (ha : ∀ k, ab (ix2 p k) = a (ix2 r k)) (hn : ∀ k, nb (ix2 q k) = n (ix2 c k)) :
    negDist ab nb p q = negDist a n r c := by
  unfold negDist sqNorm inner
  simp only [ha, hn]

theorem posDist_block {R Rb : ℕ} (a p : Rows R) (ab pb : Rows Rb) (r : Fin R) (q : Fin Rb)
    (ha : ∀ k, ab (ix2 q k) = a (ix2 r k)) (hp : ∀ k, pb (ix2 q k) = p (ix2 r k)) :
    posDist ab pb q = posDist a p r := by
  unfold posDist
  simp only [ha, hp]

end Cert.Triplet

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelPayload.lean ====
/-
  The body's four stored values, read at a row, over the extended reals.

  Over the extended reals every float operation is the exact one and rounding to bf16 is the identity, so each stored
  [2048, 1] column, read at row r, is a closed expression in the rows of the blocks it is computed from:
    the first tile's store to the distance column   sqrt (max ε (Σ_k (a r k − p r k)²))          = posDist a p r
    the first tile's reset of the running minimum   +∞                                            = top
    the update of the running minimum               min (acc r) (the least of +∞ and negDist a n r c over the tile's 1024 columns c)
    the last tile's store to the output             max (dp r − mn r + 1/4) 0
  The pointwise operations read through at an index by definition. The others are read one at a time: a sum or a
  minimum along the second axis, at row r, ranges over the entries (r, k) of that row; a vector kept as a column, a
  column turned into a row, and a column or a row spread over a matrix each read the one entry of the same row or
  column; and the matrix product accumulated into zero, contracting the second axis of both operands, is at (r, c) the
  sum Σ_k a r k · n c k. So at (r, c) the tile's distance matrix holds
  sqrt (max ε (Σ_k a r k² + Σ_k n c k² − 2 · Σ_k a r k · n c k)) = negDist a n r c, and its minimum along row r from
  +∞ is minAll (negDist a n r).
-/
import proofs.«122117_j63728724738653_1_alg».proof.Proof.Gen.KernelIdeal.Skeleton
import proofs.«122117_j63728724738653_1_alg».proof.Proof.TripletSpec
import proofs.«122117_j63728724738653_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen Cert.Triplet

/-- An `[a, 1]` column cast to a `[1, a]` row reads, at `(u, i)`, the column's entry of row `i`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- Over row `r` of a matrix reduced along its second axis, the index with coordinate `k` put back is `(r, k)`. -/
theorem lift_row {R C : ℕ} (h : Shape.Reduces ⟨2, ![R, C]⟩ [1] ⟨1, ![R]⟩) (r : Fin R) (k : Fin C) :
    h.lift (ix1 r) k = ix2 r k := by
  funext c
  match c with
  | ⟨0, _⟩ => rfl
  | ⟨1, _⟩ => rfl

/-- A sum along the second axis, read at row `r`: the sum of the row's entries. -/
theorem rowSum_at {R C : ℕ} (v : FVec Ideal ⟨2, ![R, C]⟩ .f32) (h : Shape.Reduces ⟨2, ![R, C]⟩ [1] ⟨1, ![R]⟩)
    (hφ : FKind.Formats .f32) (hacc : (0x00000000#32 : BitVec 32) = FKind.add.neutral .f32 hφ) (r : Fin R) :
    multiReduction .add [1] ⟨1, ![R]⟩ v 0x00000000#32 h hφ hacc (ix1 r) = ∑ k : Fin C, v (ix2 r k) :=
  (Ideal.multiReduction_add_single v 0x00000000#32 h hφ hacc (ix1 r)).trans
    (Finset.sum_congr rfl fun k _ => congrArg v (lift_row h r k))

/-- A minimum along the second axis from +∞, read at row `r`: the least of +∞ and the row's entries. -/
theorem rowMin_at {R C : ℕ} (v : FVec Ideal ⟨2, ![R, C]⟩ .f32) (h : Shape.Reduces ⟨2, ![R, C]⟩ [1] ⟨1, ![R]⟩)
    (hφ : FKind.Formats .f32) (hacc : (0x7F800000#32 : BitVec 32) = FKind.minimumf.neutral .f32 hφ) (r : Fin R) :
    multiReduction .minimumf [1] ⟨1, ![R]⟩ v 0x7F800000#32 h hφ hacc (ix1 r) = minAll fun c : Fin C => v (ix2 r c) := by
  refine (multiReduction_minimumf_eq_fold v 0x7F800000#32 h hφ hacc (ix1 r)).trans ?_
  refine (h.fold_filter_drop_single FloatOps.minimumf (FloatOps.ofBits .f32 0x7F800000#32) v (ix1 r)).trans ?_
  have e : v ∘ h.lift (ix1 r) = fun c : Fin C => v (ix2 r c) := funext fun c => congrArg v (lift_row h r c)
  rw [e]
  rfl

/-! The anchor-negative products: the dot contracts the second axis of both operands, so its operand indices at
    output index (r, c) and contraction coordinate k are (r, k) and (c, k). -/

theorem lhs_gram_0 (i : S2048x1024.Idx) (q : dot_S2048x256_S1024x256_S2048x1024_1_1_0_0_n_n.contr.Idx) :
    (dot_S2048x256_S1024x256_S2048x1024_1_1_0_0_n_n.lhsIdx i q 0).val = (i 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl
theorem lhs_gram_1 (i : S2048x1024.Idx) (q : dot_S2048x256_S1024x256_S2048x1024_1_1_0_0_n_n.contr.Idx) :
    (dot_S2048x256_S1024x256_S2048x1024_1_1_0_0_n_n.lhsIdx i q 1).val = (q ⟨0, by decide⟩).val :=
  dot_S2048x256_S1024x256_S2048x1024_1_1_0_0_n_n.lhsIdx_val_of_single rfl i q
theorem rhs_gram_0 (i : S2048x1024.Idx) (q : dot_S2048x256_S1024x256_S2048x1024_1_1_0_0_n_n.contr.Idx) :
    (dot_S2048x256_S1024x256_S2048x1024_1_1_0_0_n_n.rhsIdx i q 0).val = (i 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl
theorem rhs_gram_1 (i : S2048x1024.Idx) (q : dot_S2048x256_S1024x256_S2048x1024_1_1_0_0_n_n.contr.Idx) :
    (dot_S2048x256_S1024x256_S2048x1024_1_1_0_0_n_n.rhsIdx i q 1).val = (q ⟨0, by decide⟩).val :=
  dot_S2048x256_S1024x256_S2048x1024_1_1_0_0_n_n.rhsIdx_val_of_single rfl i q

/-- The product of the rounded anchors with the rounded negatives, accumulated into zero, at (r, c): the inner product
    of anchor row r with negative row c (rounding is the identity over the extended reals). -/
theorem gram_at (a : Vec Ideal S2048x256 .f32) (n : Vec Ideal S1024x256 .f32) (r : Fin 2048) (c : Fin 1024) :
    matmul dot_S2048x256_S1024x256_S2048x1024_1_1_0_0_n_n none (truncf .bf16 a bitsLt_bf16_f32) (truncf .bf16 n bitsLt_bf16_f32)
        (constant (F := Ideal) S2048x1024 .f32 0x00000000#32) (ix2 r c)
      = Triplet.inner a n r c := by
  refine (Ideal.matmul_constant_zero_apply dot_S2048x256_S1024x256_S2048x1024_1_1_0_0_n_n none _ _ (ix2 r c)).trans ?_
  unfold Triplet.inner
  rw [← Equiv.sum_comp (ValueIdx.contrEquiv1 dot_S2048x256_S1024x256_S2048x1024_1_1_0_0_n_n 256 rfl rfl).symm]
  refine Finset.sum_congr rfl fun k _ => ?_
  have hk := ValueIdx.contrEquiv1_symm_val dot_S2048x256_S1024x256_S2048x1024_1_1_0_0_n_n 256 rfl rfl k
  have el : dot_S2048x256_S1024x256_S2048x1024_1_1_0_0_n_n.lhsIdx (ix2 r c) ((ValueIdx.contrEquiv1 dot_S2048x256_S1024x256_S2048x1024_1_1_0_0_n_n 256 rfl rfl).symm k) = ix2 r k := funext fun ax => Fin.ext (by
    match ax with
    | ⟨0, _⟩ => exact lhs_gram_0 _ _
    | ⟨1, _⟩ => exact (lhs_gram_1 _ _).trans hk)
  have er : dot_S2048x256_S1024x256_S2048x1024_1_1_0_0_n_n.rhsIdx (ix2 r c) ((ValueIdx.contrEquiv1 dot_S2048x256_S1024x256_S2048x1024_1_1_0_0_n_n 256 rfl rfl).symm k) = ix2 c k := funext fun ax => Fin.ext (by
    match ax with
    | ⟨0, _⟩ => exact rhs_gram_0 _ _
    | ⟨1, _⟩ => exact (rhs_gram_1 _ _).trans hk)
  rw [el, er]
  rfl

/-- The anchors' squared norms, summed along the rows, kept as a column and spread over the columns: at (r, c) the
    squared norm of anchor row r. -/
theorem sqNormA_at (a : Vec Ideal S2048x256 .f32) (r : Fin 2048) (c : Fin 1024) :
    broadcastTo S2048x1024
        (shapeCast S2048x1 (multiReduction (F := Ideal) .add [1] S2048 (mulf a a) 0x00000000#32 reduces_S2048x256_S2048 (.inl rfl) rfl)
          shapeCasts_S2048_S2048x1)
        broadcasts_S2048x1_S2048x1024 (ix2 r c)
      = sqNorm a r := by
  refine (Cert.LibColumn.broadcastTo_a1_ab_apply _ _ r c).trans ?_
  refine (Cert.LibColumn.shapeCast_a_a1_apply _ _ r (0 : Fin 1)).trans ?_
  exact rowSum_at (mulf a a) reduces_S2048x256_S2048 (.inl rfl) rfl r

/-- The negatives' squared norms, summed along the rows, turned from a column into a row and spread over the rows: at
    (r, c) the squared norm of negative row c. -/
theorem sqNormN_at (n : Vec Ideal S1024x256 .f32) (r : Fin 2048) (c : Fin 1024) :
    broadcastTo S2048x1024
        (shapeCast S1x1024
          (shapeCast S1024x1 (multiReduction (F := Ideal) .add [1] S1024 (mulf n n) 0x00000000#32 reduces_S1024x256_S1024 (.inl rfl) rfl)
            shapeCasts_S1024_S1024x1)
          shapeCasts_S1024x1_S1x1024)
        broadcasts_S1x1024_S2048x1024 (ix2 r c)
      = sqNorm n c := by
  refine (broadcastTo_1b_ab_apply _ _ r c).trans ?_
  refine (shapeCast_a1_1a_apply _ _ (0 : Fin 1) c).trans ?_
  refine (Cert.LibColumn.shapeCast_a_a1_apply _ _ c (0 : Fin 1)).trans ?_
  exact rowSum_at (mulf n n) reduces_S1024x256_S1024 (.inl rfl) rfl c

/-- The value stored to the second scratch column: row r holds the clamped anchor-positive distance of row r. -/
theorem posDist_at (a p : Vec Ideal S2048x256 .f32) (r : Fin 2048) (u : Fin 1) :
    k0_pay1 (F := Ideal) a p (ix2 r u) = posDist a p r := by
  unfold k0_pay1
  refine (congrFun (shapeCast_self _ _) (ix2 r u)).trans ?_
  show Ideal.sqrt (max eps (shapeCast S2048x1 _ shapeCasts_S2048_S2048x1 (ix2 r u))) = _
  refine congrArg (fun x => Ideal.sqrt (max eps x)) ?_
  refine (Cert.LibColumn.shapeCast_a_a1_apply _ _ r u).trans ?_
  exact rowSum_at (mulf (subf a p) (subf a p)) reduces_S2048x256_S2048 (.inl rfl) rfl r

/-- The value the first column tile resets the running minimum to: +∞ in every row. -/
theorem reset_at (r : Fin 2048) (u : Fin 1) : (k0_pay2 (F := Ideal)) (ix2 r u) = top := by
  unfold k0_pay2
  exact congrFun (shapeCast_self _ _) (ix2 r u)

/-- The updated running minimum: row r holds the least of what it held and this tile's distances from anchor row r. -/
theorem minUpdate_at (a : Vec Ideal S2048x256 .f32) (n : Vec Ideal S1024x256 .f32) (acc : Vec Ideal S2048x1 .f32)
    (r : Fin 2048) (u : Fin 1) :
    k0_pay3 (F := Ideal) a n acc (ix2 r u) = min (acc (ix2 r u)) (minAll (negDist a n r)) := by
  unfold k0_pay3
  refine (congrFun (shapeCast_self _ _) (ix2 r u)).trans ?_
  show min (acc (ix2 r u)) (shapeCast S2048x1 _ shapeCasts_S2048_S2048x1 (ix2 r u)) = _
  refine congrArg (min (acc (ix2 r u))) ?_
  refine (Cert.LibColumn.shapeCast_a_a1_apply _ _ r u).trans ?_
  refine (rowMin_at _ reduces_S2048x1024_S2048 (.inl rfl) rfl r).trans ?_
  refine congrArg minAll (funext fun c => ?_)
  unfold negDist
  refine congrArg (fun x => Ideal.sqrt (max eps x)) ?_
  exact congrArg₂ (· - ·) (congrArg₂ (· + ·) (sqNormA_at a r c) (sqNormN_at n r c)) (congrArg (two * ·) (gram_at a n r c))
/-- The value stored to the output block: row r holds max (dp r − mn r + 1/4) 0. -/
theorem loss_at (dp mn : Vec Ideal S2048x1 .f32) (r : Fin 2048) (u : Fin 1) :
    k0_pay4 (F := Ideal) dp mn (ix2 r u) = max (dp (ix2 r u) - mn (ix2 r u) + margin) zero := by
  unfold k0_pay4
  rfl

end Cert.KernelIdeal.Payload

end
-- ==== Proof.KernelInvariant.lean ====
/-
  What the carried scratch columns and the output block hold after each grid point, over the extended reals.

  Point t is row tile t / 8 and column tile t % 8. For row p of the row tile, which is anchor row r = 2048·(t / 8) + p:
    the first scratch column holds the least of +∞ and the distances from anchor row r to the negatives 0, …,
      1024·(t % 8) + 1023 (the column tiles walked so far);
    the second scratch column holds the anchor-positive distance of row r;
    after the last column tile (t % 8 = 7) the output block holds the loss of row r: by then the running minimum ranges
      over all 8192 negatives.
  By induction on the point: the first column tile resets the running minimum and extends it by its own tile, every later
  one extends what the point before left (same row tile, the next 1024 negatives).
-/
import proofs.«122117_j63728724738653_1_alg».proof.Proof.KernelPieces
import proofs.«122117_j63728724738653_1_alg».proof.Proof.KernelBlocks
import proofs.«122117_j63728724738653_1_alg».proof.Proof.KernelPayload
import proofs.«122117_j63728724738653_1_alg».proof.Proof.TripletSpec

noncomputable section

open Idealize.ShloMosaic Idealize.ShloMosaic.TcCoe Idealize.SL.Sem Idealize.ShloMosaic.ValueIdx

namespace Cert.KernelIdeal.Invariant

open Cert.KernelIdeal Cert.KernelIdeal.Gen Cert.Triplet Cert.KernelIdeal.Blocks Cert.KernelIdeal.Pieces Cert.KernelIdeal.Payload

variable (m : (ℓ : Loc nD τ sig) → Buf (Elt Ideal) ℓ)

/-- The distances from anchor row r to every negative row. -/
abbrev rowDist (c : Dev nD) (r : Fin 8192) : Fin 8192 → EReal := negDist (anchors m c) (negatives m c) r

/-- One update of the running minimum: if row p held the minimum over the negatives below k = 1024·(t % 8), it now holds
    the minimum over the negatives below k + 1024. -/
theorem tileMin (c : Dev nD) (t : Fin cfg0.N) (p : Fin 2048) (r : Fin 8192) (hr : r.val = 2048 * (t.val / 8) + p.val)
    (k : ℕ) (hk : k = 1024 * (t.val % 8)) (acc : Vec Ideal S2048x1 .f32)
    (hacc : acc (ix2 p (0 : Fin 1)) = minBelow (rowDist m c r) k) :
    k0_pay3 (F := Ideal) (aBlock m c t) (nBlock m c t) acc (ix2 p (0 : Fin 1)) = minBelow (rowDist m c r) (k + 1024) := by
  have hN : t.val < 32 := lt_of_lt_of_eq t.isLt N_0
  have hle : k + 1024 ≤ 8192 := by omega
  rw [minUpdate_at, hacc, minBelow_add_tile (rowDist m c r) k 1024 hle]
  refine congrArg (min _) ?_
  unfold minAll
  refine congrArg (Finset.fold min top · Finset.univ) ?_
  funext q
  exact negDist_block (anchors m c) (negatives m c) (aBlock m c t) (nBlock m c t) r p
    ⟨k + q.val, lt_of_lt_of_le (Nat.add_lt_add_left q.isLt k) hle⟩ q
    (fun j => aBlock_at m c t p j r hr)
    (fun j => nBlock_at m c t q j ⟨k + q.val, lt_of_lt_of_le (Nat.add_lt_add_left q.isLt k) hle⟩ (by show k + q.val = _; omega))

/-- The first column tile of a row tile. -/
theorem firstTile (c : Dev nD) (t : Fin cfg0.N) (h0 : t.val % 8 = 0) (h1 : ¬t.val % 8 = 7) (p : Fin 2048) (r : Fin 8192)
    (hr : r.val = 2048 * (t.val / 8) + p.val) :
    (outsAt0 m c t.val t.isLt).2.1 (ix2 p (0 : Fin 1)) = minBelow (rowDist m c r) (1024 * (t.val % 8) + 1024)
    ∧ (outsAt0 m c t.val t.isLt).2.2 (ix2 p (0 : Fin 1)) = posDist (anchors m c) (positives m c) r := by
  rw [outsAt0_A m c t h0 h1]
  dsimp only
  constructor
  · refine (congrFun (scratchMin_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)) (ix2 p (0 : Fin 1))).trans ?_
    exact (tileMin m c t p r hr 0 (by omega) (k0_pay2 (F := Ideal)) ((reset_at p 0).trans (minBelow_zero _).symm)).trans
      (congrArg (minBelow _) (by omega))
  · refine (congrFun (scratchPos_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)) (ix2 p (0 : Fin 1))).trans ?_
    refine (posDist_at (aBlock m c t) (pBlock m c t) p 0).trans ?_
    exact posDist_block (anchors m c) (positives m c) (aBlock m c t) (pBlock m c t) r p
      (fun j => aBlock_at m c t p j r hr) (fun j => pBlock_at m c t p j r hr)

/-- A middle column tile: over what the point before left. -/
theorem middleTile (c : Dev nD) (t : Fin cfg0.N) (h0 : ¬t.val % 8 = 0) (h1 : ¬t.val % 8 = 7) (p : Fin 2048) (r : Fin 8192)
    (hr : r.val = 2048 * (t.val / 8) + p.val)
    (ih1 : (outsAt0 m c (t.val - 1) (Nat.lt_of_le_of_lt (Nat.sub_le _ _) t.isLt)).2.1 (ix2 p (0 : Fin 1)) = minBelow (rowDist m c r) (1024 * (t.val % 8)))
    (ih2 : (outsAt0 m c (t.val - 1) (Nat.lt_of_le_of_lt (Nat.sub_le _ _) t.isLt)).2.2 (ix2 p (0 : Fin 1)) = posDist (anchors m c) (positives m c) r) :
    (outsAt0 m c t.val t.isLt).2.1 (ix2 p (0 : Fin 1)) = minBelow (rowDist m c r) (1024 * (t.val % 8) + 1024)
    ∧ (outsAt0 m c t.val t.isLt).2.2 (ix2 p (0 : Fin 1)) = posDist (anchors m c) (positives m c) r := by
  rw [outsAt0_B m c t h0 h1]
  dsimp only
  constructor
  · refine (congrFun (scratchMin_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1))).trans ?_
    exact tileMin m c t p r hr (1024 * (t.val % 8)) rfl (outsAt0 m c (t.val - 1) (Nat.lt_of_le_of_lt (Nat.sub_le _ _) t.isLt)).2.1 ih1
  · exact ih2

/-- The last column tile: the running minimum is complete and the loss is stored. -/
theorem lastTile (c : Dev nD) (t : Fin cfg0.N) (h0 : ¬t.val % 8 = 0) (h1 : t.val % 8 = 7) (p : Fin 2048) (r : Fin 8192)
    (hr : r.val = 2048 * (t.val / 8) + p.val)
    (ih1 : (outsAt0 m c (t.val - 1) (Nat.lt_of_le_of_lt (Nat.sub_le _ _) t.isLt)).2.1 (ix2 p (0 : Fin 1)) = minBelow (rowDist m c r) (1024 * (t.val % 8)))
    (ih2 : (outsAt0 m c (t.val - 1) (Nat.lt_of_le_of_lt (Nat.sub_le _ _) t.isLt)).2.2 (ix2 p (0 : Fin 1)) = posDist (anchors m c) (positives m c) r) :
    (outsAt0 m c t.val t.isLt).2.1 (ix2 p (0 : Fin 1)) = minBelow (rowDist m c r) (1024 * (t.val % 8) + 1024)
    ∧ (outsAt0 m c t.val t.isLt).2.2 (ix2 p (0 : Fin 1)) = posDist (anchors m c) (positives m c) r
    ∧ (outsAt0 m c t.val t.isLt).1 (ix2 p (0 : Fin 1)) = loss (anchors m c) (positives m c) (negatives m c) r := by
  have hmin := tileMin m c t p r hr (1024 * (t.val % 8)) rfl (outsAt0 m c (t.val - 1) (Nat.lt_of_le_of_lt (Nat.sub_le _ _) t.isLt)).2.1 ih1
  rw [outsAt0_C m c t h0 h1]
  dsimp only
  refine ⟨?_, ih2, ?_⟩
  · refine (congrFun (scratchMin_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1))).trans ?_
    exact hmin
  · refine (congrFun (outLoss_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1))).trans ?_
    refine (loss_at (outsAt0 m c (t.val - 1) (Nat.lt_of_le_of_lt (Nat.sub_le _ _) t.isLt)).2.2 (k0_pay3 (F := Ideal) (aBlock m c t) (nBlock m c t) (outsAt0 m c (t.val - 1) (Nat.lt_of_le_of_lt (Nat.sub_le _ _) t.isLt)).2.1) p 0).trans ?_
    rw [ih2, hmin, minBelow_all (rowDist m c r) _ (by omega)]
    rfl

/-- The state after point n. -/
def Holds (c : Dev nD) (n : ℕ) (hn : n < cfg0.N) : Prop :=
  ∀ (p : Fin 2048) (r : Fin 8192), r.val = 2048 * (n / 8) + p.val →
    (outsAt0 m c n hn).2.1 (ix2 p (0 : Fin 1)) = minBelow (rowDist m c r) (1024 * (n % 8) + 1024)
    ∧ (outsAt0 m c n hn).2.2 (ix2 p (0 : Fin 1)) = posDist (anchors m c) (positives m c) r
    ∧ (n % 8 = 7 → (outsAt0 m c n hn).1 (ix2 p (0 : Fin 1)) = loss (anchors m c) (positives m c) (negatives m c) r)

/-- It holds after every point, by induction along the grid. -/
theorem holds (c : Dev nD) : ∀ (n : ℕ) (hn : n < cfg0.N), Holds m c n hn
  | 0, hn => fun p r hr => by
    have h := firstTile m c ⟨0, hn⟩ (Nat.zero_mod _) (by show ¬(0 : ℕ) % 8 = 7; decide) p r hr
    exact ⟨h.1, h.2, fun h7 => absurd h7 (by decide)⟩
  | n + 1, hn => fun p r hr => by
    have hN : n + 1 < 32 := lt_of_lt_of_eq hn N_0
    have ih := holds c n (Nat.lt_of_succ_lt hn)
    by_cases h0 : (n + 1) % 8 = 0
    · have h1 : ¬(n + 1) % 8 = 7 := by omega
      have h := firstTile m c ⟨n + 1, hn⟩ h0 h1 p r hr
      exact ⟨h.1, h.2, fun h7 => absurd h7 h1⟩
    · have hr' : r.val = 2048 * (n / 8) + p.val := by omega
      obtain ⟨i1, i2, -⟩ := ih p r hr'
      have e : 1024 * (n % 8) + 1024 = 1024 * ((n + 1) % 8) := by omega
      by_cases h1 : (n + 1) % 8 = 7
      · have h := lastTile m c ⟨n + 1, hn⟩ h0 h1 p r hr (i1.trans (congrArg (minBelow _) e)) i2
        exact ⟨h.1, h.2.1, fun _ => h.2.2⟩
      · have h := middleTile m c ⟨n + 1, hn⟩ h0 h1 p r hr (i1.trans (congrArg (minBelow _) e)) i2
        exact ⟨h.1, h.2, fun h7 => absurd h7 h1⟩

end Cert.KernelIdeal.Invariant

end
-- ==== Proof.TripletFinish.lean ====
/-
  The last step both programs share: from the vector of the 8192 per-row losses to one number — the mean of the
  losses over the rows whose loss is positive (their sum over their count), or, when no loss is positive, the plain mean
  (the sum over 8192). Kept as ONE function of the loss vector: the two programs apply the same operations in the same
  order, so nothing of it is ever opened.
-/
import Idealize.ShloMosaic.PureOps
import proofs.«122117_j63728724738653_1_alg».proof.Proof.TripletSpec

noncomputable section

namespace Cert.Triplet

open Idealize.ShloMosaic

/-- The shapes of a scalar and of the loss vector. -/
abbrev Sc : Shape := ⟨0, ![]⟩
abbrev Sv : Shape := ⟨1, ![8192]⟩

variable {F : FTy → Type} [FloatOps F]

/-- The number of positive losses, as a 32-bit word: each comparison's bit widened and the bits added up. -/
def positiveCount (hb : Sc.BroadcastsInDim Sv (![] : Fin 0 → Fin Sv.rank)) (hlt : 1 < 32) (hr : Sv.ReducesTo [0] Sc)
    (hpos : 0 < Sc.numel) (x : FVec F Sv .f32) : IVec Sc 32 :=
  Host.reduce IntOp.addi (extui 32 (cmpf .ogt x (broadcastInDim Sv ![] hb (constant (F := F) Sc .f32 0x00000000#32))) hlt)
    (constantI Sc 32 0#32) hr hpos

/-- The mean over the positive losses, or over all of them when none is positive. -/
def finish (hb : Sc.BroadcastsInDim Sv (![] : Fin 0 → Fin Sv.rank)) (hlt : 1 < 32) (hr : Sv.ReducesTo [0] Sc)
    (hpos : 0 < Sc.numel) (x : FVec F Sv .f32) : FVec F Sc .f32 :=
  select (cmpi .sgt (positiveCount hb hlt hr hpos x) (constantI Sc 32 0#32))
    (Host.divf (Host.reduceAdd x (constant (F := F) Sc .f32 0x00000000#32) hr hpos)
      (sitofp (F := F) .f32 (maxsi (positiveCount hb hlt hr hpos x) (constantI Sc 32 1#32))))
    (Host.divf (Host.reduceAdd x (constant (F := F) Sc .f32 0x00000000#32) hr hpos) (constant (F := F) Sc .f32 0x46000000#32))

/-- The vector of the per-row losses of three argument arrays. -/
def lossVector (a p n : Rows 8192) : Sv.Idx → EReal := fun i => loss a p n ⟨(i 0).val, (i 0).isLt⟩

end Cert.Triplet

end
-- ==== Proof.KernelTail.lean ====
/-
  After the region: the host operations that follow it compute, from the [8192, 1] array the region wrote, reshaped to a
  vector, the shared last step (the mean of the positive losses, or the plain mean) and nothing else reaches the
  program's result. So the result buffer ends holding that one function of the array's final contents, whatever they are.
-/
import proofs.«122117_j63728724738653_1_alg».proof.Proof.Gen.KernelIdeal.Frame
import proofs.«122117_j63728724738653_1_alg».proof.Proof.TripletFinish
import Idealize.ShloMosaic.Lib.Pipeline.Value
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Tail

open Cert.KernelIdeal Cert.KernelIdeal.Gen Cert.Triplet

variable {F : FTy → Type} [FloatOps F]
variable (m : (ℓ : Loc nD τ sig) → Buf (Elt F) ℓ)

set_option maxHeartbeats 2000000 in
/-- The result buffer after the operations that follow the region: the shared last step of the region's array, flattened. -/
theorem result_eq (c : Dev nD) :
    Pipeline.afterTail₀ cfgs (dats m) 0 (V0 m) [hostOps1, hostOps1_1] c main_v13
      = finish (F := F) bcast_S_S8192 natLt_1_32 reducesTo_S8192_S_d0 h_S_
          (shapeCast S8192 ((dats m 0 c).arrAt 3 cfg0.N) shapeCasts_S8192x1_S8192) := by
  unfold Pipeline.afterTail₀
  simp only [hostOps1, hostOps1_1, List.flatten_cons, List.flatten_nil, List.append_nil, List.cons_append, List.nil_append]
  after_results_simp
  try simp only [TRef.ofBuf, TRef.toBuf, cast_eq]
  have e : Pipeline.withArrays (cfgs 0).spec c (V0 m c) (fun w => (dats m 0 c).arrAt w (cfgs 0).N) (Proc.devRef .tc main_v0)
      = (dats m 0 c).arrAt 3 cfg0.N :=
    Pipeline.withArrays_arr spec0 launch0.win.arr_inj c (V0 m c) (fun w => (dats m 0 c).arrAt w cfg0.N) 3
  rw [e]
  rfl

end Cert.KernelIdeal.Tail

end
-- ==== Proof.LibColumnFlat.lean ====
/-
  A column flattened, read at an index: an `[a, 1]` array reshaped to a vector of `a` entries holds, at `i`, the column's
  entry of row `i`. (The opposite direction, `[a] → [a, 1]`, and the column broadcast `[a, 1] → [a, b]` are
  `Cert.LibColumn`'s; the row forms are the library's `shapeCast_1a_a_apply` and `shapeCast_a_1a_apply`.) Stated for every
  extent and every element type.
-/
import Idealize.ShloMosaic.Lib.Pipeline.Value
import Idealize.ShloMosaic.Lib.ValueIdx

namespace Cert.LibColumnFlat

open Idealize.ShloMosaic Idealize.ShloMosaic.ValueIdx

variable {α : Type}

/-- An `[a, 1]` column cast to `[a]` reads, at `i`, the column's entry of row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibColumnFlat
-- ==== Proof.KernelResult.lean ====
/-
  The kernel's result array: after the run, row r of the [8192, 1] array the region writes holds the loss of row r.
  Only the last column tile of each row tile writes its output block back (points 7, 15, 23, 31), and what it writes is the
  losses of the row tile's 2048 rows; those four blocks are rows 0–2047, …, 6144–8191, so together they cover the array:
  row r is written by point 8·(r / 2048) + 7.
-/
import proofs.«122117_j63728724738653_1_alg».proof.Proof.KernelInvariant
import proofs.«122117_j63728724738653_1_alg».proof.Proof.KernelTail
import proofs.«122117_j63728724738653_1_alg».proof.Proof.LibColumnFlat
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Triplet Cert.KernelIdeal.Blocks Cert.KernelIdeal.Invariant

variable (m : (ℓ : Loc nD τ sig) → Buf (Elt Ideal) ℓ) (ρ : Dev nD → PrngReg)

/-- The column of losses: row r holds the loss of row r of the argument arrays as the region finds them. -/
def lossColumn (c : Dev nD) : S8192x1.Idx → EReal :=
  fun i => loss (anchors m c) (positives m c) (negatives m c) ⟨(i 0).val, idx2_lt0 i⟩

/-- What a writing point writes back is its block of the column of losses. -/
theorem flushed_eq (c : Dev nD) (t : Fin cfg0.N) (hf : (cfg0.win 3).flush t = true) :
    (dats m 0 c).flushed 3 t = ((cfg0.win 3).blk t).view.read (Elt Ideal) (lossColumn m c) := by
  have h7 : t.val % 8 = 7 := (flush0_3 t).mp hf
  have hN : t.val < 32 := lt_of_lt_of_eq t.isLt N_0
  show (cfg0.win 3).cut (grid0.coords t) ((dats m 0 c).after 3 t) = _
  rw [after0_3]
  funext j
  obtain ⟨p, u, rfl⟩ : ∃ (p : Fin 2048) (u : Fin 1), j = ix2 p u := ⟨j 0, j 1, eq_ix2 j⟩
  obtain rfl : u = 0 := Subsingleton.elim _ _
  rw [View.read_apply]
  have hr : (⟨2048 * (t.val / 8) + p.val, by have := p.isLt; omega⟩ : Fin 8192).val = 2048 * (t.val / 8) + p.val := rfl
  refine ((holds m c t.val t.isLt p _ hr).2.2 h7).trans ?_
  unfold lossColumn
  refine congrArg (loss (anchors m c) (positives m c) (negatives m c)) (Fin.ext ?_)
  show 2048 * (t.val / 8) + p.val = win0_3.index t 0 * 2048 + 1 * p.val
  rw [(index_facts t).2.2.2.2.2.2.1]; omega

/-- An index of the array is in point t's block iff each coordinate is in the block's range on its axis. -/
theorem mem_block (t : Fin cfg0.N) (i : S8192x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v0).slice (win0_3.rect t)).set ↔ _
  rw [View.set_slice_whole, Rect.mem_set_unit]
  exact Iff.rfl

/-- Every row of the array is in the block of the last column tile of its row tile. -/
theorem covered (i : S8192x1.Idx) : ∃ t : Fin cfg0.N, (cfg0.win 3).flush t = true ∧ i ∈ ((cfg0.win 3).blk t).view.set := by
  have hi0 : (i 0).val < 8192 := idx2_lt0 i
  have hi1 : (i 1).val < 1 := idx2_lt1 i
  have hlt : 8 * ((i 0).val / 2048) + 7 < cfg0.N := by rw [show cfg0.N = 32 from N_0]; omega
  refine ⟨⟨8 * ((i 0).val / 2048) + 7, hlt⟩, (flush0_3 _).mpr (by show (8 * ((i 0).val / 2048) + 7) % 8 = 7; omega), ?_⟩
  rw [mem_block]
  obtain ⟨-, -, -, -, -, -, e0, e1⟩ := index_facts ⟨8 * ((i 0).val / 2048) + 7, hlt⟩
  intro a
  match a with
  | ⟨0, _⟩ =>
    show win0_3.index ⟨8 * ((i 0).val / 2048) + 7, hlt⟩ 0 * 2048 ≤ (i 0).val ∧ (i 0).val < win0_3.index ⟨8 * ((i 0).val / 2048) + 7, hlt⟩ 0 * 2048 + 2048
    rw [e0]; show (8 * ((i 0).val / 2048) + 7) / 8 * 2048 ≤ (i 0).val ∧ (i 0).val < (8 * ((i 0).val / 2048) + 7) / 8 * 2048 + 2048; omega
  | ⟨1, _⟩ =>
    show win0_3.index ⟨8 * ((i 0).val / 2048) + 7, hlt⟩ 1 * 1 ≤ (i 1).val ∧ (i 1).val < win0_3.index ⟨8 * ((i 0).val / 2048) + 7, hlt⟩ 1 * 1 + 1
    rw [e1]; omega

/-- The array the region writes ends holding the column of losses. -/
theorem final (c : Dev nD) : (dats m 0 c).arrAt 3 cfg0.N = lossColumn m c :=
  (dats m 0 c).arrAt_eq_of_cover 3 (lossColumn m c) (flushed_eq m c) (covered)

/-- Flattened to a vector, the column of losses is the vector of losses. -/
theorem lossColumn_flat (c : Dev nD) :
    shapeCast S8192 (lossColumn m c) shapeCasts_S8192x1_S8192 = lossVector (anchors m c) (positives m c) (negatives m c) := by
  funext i
  obtain ⟨r, rfl⟩ : ∃ r : Fin 8192, i = ix1 r := ⟨i 0, eq_ix1 i⟩
  exact (Cert.LibColumnFlat.shapeCast_a1_a_apply (lossColumn m c) shapeCasts_S8192x1_S8192 r).trans rfl

/-- The program's result: the shared last step of the vector of losses of the argument arrays. -/
def result (c : Dev nD) : Buf (Elt Ideal) ((c.tc : Thread nD τ).loc main_v13) :=
  finish (F := Ideal) bcast_S_S8192 natLt_1_32 reducesTo_S8192_S_d0 h_S_
    (lossVector (anchors m c) (positives m c) (negatives m c))

/-- The result buffer, which no window stages, is not one of the pipeline's arrays. -/
theorem result_mem : main_v13 ∈ Pipeline.restRefs sig (cfgs 0).spec :=
  Pipeline.mem_restRefs_of main_v13 rfl (fun w => by fin_cases w <;> decide)

/-- The run, read: every weakly fair execution ends with the result buffer at `result` and the arguments unchanged. -/
theorem run : θ_run defs (onTc (τ := τ) (main (F := Ideal))) ⟨m, fun _ => 0, ρ⟩ fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v13 result_mem).trans ((Tail.result_eq m c).trans (by rw [final, lossColumn_flat]; rfl)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c)))⟩)
    (run_main m ρ)

end Cert.KernelIdeal.Result

end
-- ==== Proof.RefLoss.lean ====
/-
  The reference's vector of losses, read at a row, over the extended reals.

  For anchors a, positives p and negatives n (8192 rows of 256 entries each) the reference computes
    d r   = sqrt (max ε (0 + Σ_k (a r k − p r k)²))                                  a vector over the rows
    D r c = sqrt (max ε (((0 + Σ_k a r k²) + (0 + Σ_k n c k²)) − 2 · Σ_k a r k · n c k))   a matrix: the anchors' squared
            norms broadcast along the columns, the negatives' along the rows, and the product of a with n transposed
    m r   = the least of +∞ and D r c over the columns c                              the row minima
    ℓ r   = max (d r − m r + 1/4) 0
  Each sum starts from the f32 word 0, which is the extended real 0 and drops out. So d r is posDist a p r (pos_at),
  D r c is negDist a n r c (neg_at), m r is hardest a n r (min_at: a minimum over one axis is the fold of min from the
  initial value over that axis's coordinates, and row r's entry at coordinate c is the matrix's entry (r, c)), and ℓ r
  is loss a p n r (losses_at). The words ε, 2, 1/4, 0 and +∞ stay as the words both sides share. Nothing here asks the
  inputs to be finite.
-/
import proofs.«122117_j63728724738653_1_alg».proof.Proof.RefRead
import proofs.«122117_j63728724738653_1_alg».proof.Proof.TripletSpec
import Idealize.ShloMosaic.Lib.ValueIdx
import Idealize.ShloMosaic.PureOps.Ideal.Laws

noncomputable section

open Idealize.ShloMosaic Idealize.ShloMosaic.ValueIdx

namespace Cert.ReferenceIdeal.RefLoss

open Cert.ReferenceIdeal Cert.ReferenceIdeal.ReadP Cert.Triplet

/-- The sum over the 256 entries of row r of the differences reads entry k at (r, k). -/
theorem idx_v2_at (r : Fin 8192) (k : Fin 256) : idx_main_v2 (ix1 r) k = ix2 r k :=
  funext fun d => Fin.ext (by match d with | ⟨0, _⟩ => rfl | ⟨1, _⟩ => rfl)

/-- At (r, c) the anchors' squared norms, broadcast along the columns, read the anchors at (r, k). -/
theorem idx_v7_at (r c : Fin 8192) (k : Fin 256) :
    idx_main_v7 (idx_main_v8 (idx_main_v12 (ix2 r c))) k = ix2 r k :=
  funext fun d => Fin.ext (by match d with | ⟨0, _⟩ => rfl | ⟨1, _⟩ => rfl)

/-- At (r, c) the negatives' squared norms, broadcast along the rows, read the negatives at (c, k). -/
theorem idx_v10_at (r c : Fin 8192) (k : Fin 256) :
    idx_main_v10 (idx_main_v11 (idx_main_v13 (ix2 r c))) k = ix2 c k :=
  funext fun d => Fin.ext (by match d with | ⟨0, _⟩ => rfl | ⟨1, _⟩ => rfl)

/-- At (r, c) the product of the anchors with the transposed negatives reads the anchors at (r, k) … -/
theorem lidx_v5_at (r c : Fin 8192) (k : Fin 256) : lidx_main_v5 (ix2 r c) k = ix2 r k :=
  funext fun d => Fin.ext (by match d with | ⟨0, _⟩ => rfl | ⟨1, _⟩ => rfl)

/-- … and the negatives at (c, k). -/
theorem ridx_v5_at (r c : Fin 8192) (k : Fin 256) : ridx_main_v5 (ix2 r c) k = ix2 c k :=
  funext fun d => Fin.ext (by match d with | ⟨0, _⟩ => rfl | ⟨1, _⟩ => rfl)

/-- Entry r of the clamped distances between anchors and positives. -/
theorem pos_at (a p : (⟨S8192x256, .f32⟩ : BufTy).Contents (Elt Ideal)) (r : Fin 8192) :
    val_main_v4 (F := Ideal) a p (ix1 r) = posDist a p r := by
  rw [val_main_v4_apply, val_main_v3_apply, val_main_call0_v1_apply, val_main_call0_v0_apply, val_main_cst_0_apply,
    val_main_v2_apply, val_main_cst_apply]
  simp only [val_main_v1_apply, val_main_v0_apply, idx_v2_at, Ideal.maximumf_def, Ideal.subf_def, Ideal.mulf_def,
    Ideal.ofBits_def, Ideal.hostUnary_sqrt_def, Ideal.ofBits_zero_f32, zero_add]
  rfl

/-- Entry (r, c) of the matrix of clamped distances between anchors and negatives. -/
theorem neg_at (a n : (⟨S8192x256, .f32⟩ : BufTy).Contents (Elt Ideal)) (r c : Fin 8192) :
    val_main_v19 (F := Ideal) a n (ix2 r c) = negDist a n r c := by
  rw [val_main_v19_apply, val_main_v18_apply, val_main_call1_v1_apply, val_main_call1_v0_apply, val_main_cst_4_apply,
    val_main_v17_apply, val_main_v14_apply, val_main_v12_apply, val_main_v8_apply, val_main_v7_apply,
    val_main_cst_1_apply, val_main_v13_apply, val_main_v11_apply, val_main_v10_apply, val_main_cst_2_apply,
    val_main_v16_apply, val_main_v15_apply, val_main_cst_3_apply, val_main_v5_apply]
  simp only [val_main_v6_apply, val_main_v9_apply, idx_v7_at, idx_v10_at, lidx_v5_at, ridx_v5_at, Ideal.maximumf_def,
    Ideal.subf_def, Ideal.addf_def, Ideal.mulf_def, Ideal.ofBits_def, Ideal.hostUnary_sqrt_def, Ideal.ofBits_zero_f32,
    zero_add]
  rfl

/-- A fold of the extended reals' minimum over N columns, entry by entry. -/
theorem fold_min_congr (N : Nat) (b : EReal) (f g : Fin N → EReal) (hfg : ∀ c, f c = g c) :
    (Finset.univ : Finset (Fin N)).fold (FloatOps.minimumf (F := Ideal) (φ := .f32)) b f
      = (Finset.univ : Finset (Fin N)).fold min b g := by
  rw [show f = g from funext hfg]
  rfl

/-- Entry r of the row minima of that matrix, taken from +∞, is the distance to the closest negative. -/
theorem min_at (a n : (⟨S8192x256, .f32⟩ : BufTy).Contents (Elt Ideal)) (r : Fin 8192) :
    val_main_v20 (F := Ideal) a n (ix1 r) = hardest a n r := by
  have h : S8192x8192.Reduces [1] S8192 := by decide
  unfold val_main_v20
  rw [Host.reduce_eq_fold_single FloatOps.minimumf _ _ _ h, val_main_cst_5_apply]
  rw [Ideal.ofBits_def]
  unfold hardest minAll
  refine fold_min_congr 8192 _ _ _ fun c => ?_
  show val_main_v19 (F := Ideal) a n (h.lift (ix1 r) c) = negDist a n r c
  rw [show h.lift (ix1 r) c = ix2 r c from
    funext fun d => Fin.ext (by match d with | ⟨0, _⟩ => rfl | ⟨1, _⟩ => rfl)]
  exact neg_at a n r c

/-- Entry r of the reference's loss vector (its value before the final averaging) is the loss of row r. -/
theorem losses_at (a p n : (⟨S8192x256, .f32⟩ : BufTy).Contents (Elt Ideal)) (r : Fin 8192) :
    val_main_v24 (F := Ideal) a p n (ix1 r) = loss a p n r := by
  rw [val_main_v24_apply, val_main_v23_apply, val_main_v21_apply, val_main_call2_v0_apply, val_main_call2_cst_apply,
    val_main_v22_apply, val_main_cst_6_apply, pos_at, min_at]
  rfl

end Cert.ReferenceIdeal.RefLoss

end
-- ==== Proof.RefResult.lean ====
/-
  The reference's result: the shared last step of the vector of losses of its arguments. Its last operations, from the
  vector of per-row losses on, are the same operations in the same order as the ones that follow the kernel's region, so the
  result is that one function of the loss vector; and the loss vector, entry by entry, is the loss of each row.
-/
import proofs.«122117_j63728724738653_1_alg».proof.Proof.RefRead
import proofs.«122117_j63728724738653_1_alg».proof.Proof.RefLoss
import proofs.«122117_j63728724738653_1_alg».proof.Proof.TripletFinish

noncomputable section

open Idealize.ShloMosaic Idealize.ShloMosaic.ValueIdx

namespace Cert.ReferenceIdeal.RefResult

open Cert.ReferenceIdeal Cert.ReferenceIdeal.Gen Cert.ReferenceIdeal.ReadP Cert.Triplet

/-- At any float values: the result is the shared last step of the loss vector. -/
theorem finish_eq {F : FTy → Type} [FloatOps F] (a p n : (⟨S8192x256, .f32⟩ : BufTy).Contents (Elt F)) :
    val_main_v36 (F := F) a p n
      = finish (F := F) bcast_S_S8192 natLt_1_32 reducesTo_S8192_S_d0 h_S_ (val_main_v24 (F := F) a p n) := rfl

/-- Over the extended reals the loss vector is the vector of the rows' losses. -/
theorem losses_eq (a p n : (⟨S8192x256, .f32⟩ : BufTy).Contents (Elt Ideal)) :
    val_main_v24 (F := Ideal) a p n = lossVector a p n := by
  funext i
  obtain ⟨r, rfl⟩ : ∃ r : Fin 8192, i = ix1 r := ⟨i 0, eq_ix1 i⟩
  exact (RefLoss.losses_at a p n r).trans rfl

/-- So the reference's result is the shared last step of the vector of the rows' losses. -/
theorem result_eq (a p n : (⟨S8192x256, .f32⟩ : BufTy).Contents (Elt Ideal)) :
    val_main_v36 (F := Ideal) a p n
      = finish (F := Ideal) bcast_S_S8192 natLt_1_32 reducesTo_S8192_S_d0 h_S_ (lossVector a p n) := by
  rw [finish_eq, losses_eq]

end Cert.ReferenceIdeal.RefResult

end
-- ==== Proof.lean ====
/-
  The kernel computes the batch-hard triplet loss of 8192 anchors, positives and negatives of 256 entries in tiles — 4 row
  tiles of 2048 anchors by 8 column tiles of 1024 negatives —, keeping per anchor row the running minimum of its distances
  to the negatives seen so far and, after the last column tile, storing each row's loss
      max (sqrt (max ε Σ_k (a r k − p r k)²) − min_c sqrt (max ε (Σ_k a r k² + Σ_k n c k² − 2 Σ_k a r k · n c k)) + 1/4) 0;
  the reference computes the same expression over the whole 8192 × 8192 distance matrix. Over the extended reals the two
  agree row by row: every sum, product and square root is the same expression of the same entries (rounding the matrix
  product's operands to bf16 is the identity there), and a minimum over all 8192 negatives taken from +∞ is the minimum of
  the eight tiles' minima taken one after the other from +∞ (a fold of min over a set is characterised by its lower
  bounds). Both programs then apply the same last step to the vector of losses (the mean of the positive losses, or the
  plain mean when none is positive), which is never opened. No law used here needs the inputs to be finite.

  frame_Kernel, frame_KernelIdeal: the generated frames. frame_ReferenceIdeal: the reference's run with its result dropped.
  preserves: the idealization rewrote nothing. algebraic: the kernel's run read at its result (KernelResult) and the
  reference's run read at its result (RefResult) name the same value.
-/
import proofs.«122117_j63728724738653_1_alg».proof.Defs
import proofs.«122117_j63728724738653_1_alg».proof.Proof.Gen.Kernel
import proofs.«122117_j63728724738653_1_alg».proof.Proof.Gen.Kernel.Frame
import proofs.«122117_j63728724738653_1_alg».proof.Proof.Gen.KernelIdeal
import proofs.«122117_j63728724738653_1_alg».proof.Proof.Gen.KernelIdeal.Frame
import proofs.«122117_j63728724738653_1_alg».proof.Proof.Gen.ReferenceIdeal
import proofs.«122117_j63728724738653_1_alg».proof.Proof.Gen.Pre_finite_inputs
import proofs.«122117_j63728724738653_1_alg».proof.Proof.RefRun
import proofs.«122117_j63728724738653_1_alg».proof.Proof.RefRead
import proofs.«122117_j63728724738653_1_alg».proof.Proof.KernelResult
import proofs.«122117_j63728724738653_1_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result buffer at the shared last step of the vector of the rows' losses of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v36_eq, (hagree c).1, (hagree c).2.1, (hagree c).2.2,
    Cert.ReferenceIdeal.RefResult.result_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
